-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S2048x2048 : Shape := ⟨2, ![2048, 2048]⟩
abbrev S2048 : Shape := ⟨1, ![2048]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S512x2048 .f32) (main_arg1 : FVec F S2048x2048 .f32) (main_arg2 : FVec F S2048 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩
abbrev S1x512 : Shape := ⟨2, ![1, 512]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048, .f32⟩
  | .hbm, ⟨3, _⟩ => ⟨S1x2048, .f32⟩
  | .hbm, ⟨4, _⟩ => ⟨S512x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x2048.size a
  hwx0_0 : ∀ i : grid0.Coords, EltTy.bits .f32 = 32 ∨ (Rect.block (s := S512x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x2048.size a
  hwx0_3 : ∀ i : grid0.Coords, EltTy.bits .f32 = 32 ∨ (Rect.block (s := S512x2048) S512x512.size (cc0_transform_3 i) (hinb0_3 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x2048 : Shape := ⟨2, ![512, 2048]⟩
abbrev S2048x2048 : Shape := ⟨2, ![2048, 2048]⟩
abbrev S2048 : Shape := ⟨1, ![2048]⟩
abbrev S_ : Shape := ⟨0, ![]⟩
abbrev S512x1 : Shape := ⟨2, ![512, 1]⟩
abbrev S512x2049 : Shape := ⟨2, ![512, 2049]⟩
abbrev S1x2048 : Shape := ⟨2, ![1, 2048]⟩
abbrev S2049x2048 : Shape := ⟨2, ![2049, 2048]⟩

abbrev nBuf : Space → Nat
  | .hbm => 38
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S512x1, .f32⟩
  | .hbm, ⟨5, _⟩ => ⟨S512x2049, .f32⟩
  | .hbm, ⟨6, _⟩ => ⟨S2048x2048, .f32⟩
  | .hbm, ⟨7, _⟩ => ⟨S1x2048, .f32⟩
  | .hbm, ⟨8, _⟩ => ⟨S2049x2048, .f32⟩
  | .hbm, ⟨9, _⟩ => ⟨S_, .f32⟩
  | .hbm, ⟨10, _⟩ => ⟨S512x2049, .f32⟩
  | .hbm, ⟨11, _⟩ => ⟨S512x2049, .f32⟩
  | .hbm, ⟨12, _⟩ => ⟨S2049x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2049x2048, .f32⟩
  | .hbm, ⟨20, _⟩ => ⟨S2049x2048, .f32⟩
  | .hbm, ⟨21, _⟩ => ⟨S_, .f32⟩
  | .hbm, ⟨22, _⟩ => ⟨S2049x2048, .f32⟩
  | .hbm, ⟨23, _⟩ => ⟨S2049x2048, .f32⟩
  | .hbm, ⟨24, _⟩ => ⟨S_, .f32⟩
  | .hbm, ⟨25, _⟩ => ⟨S2049x2048, .f32⟩
  | .hbm, ⟨26, _⟩ => ⟨S2049x2048, .f32⟩
  | .hbm, ⟨27, _⟩ => ⟨S_, .f32⟩
  | .hbm, ⟨28, _⟩ => ⟨S2049x2048, .f32⟩
  | .hbm, ⟨29, _⟩ => ⟨S2049x2048, .f32⟩
  | .hbm, ⟨30, _⟩ => ⟨S_, .f32⟩
  | .hbm, ⟨31, _⟩ => ⟨S2049x2048, .f32⟩
  | .hbm, ⟨32, _⟩ => ⟨S2049x2048, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_v18 : Ref sig .tc := ⟨.hbm, 29, rfl⟩
abbrev main_cst_7 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  bcast_S_S512x1 : S_.BroadcastsInDim S512x1 (![] : Fin 0 → Fin S512x1.rank)
  concatenates_S512x2048_S512x1_S512x2049_d1 : Shape.Concatenates [S512x2048, S512x1] S512x2049 1
  transposes_S2048x2048_S2048x2048_1_0 : S2048x2048.Transposes [1, 0] S2048x2048
  bcast_S2048_S1x2048_1 : S2048.BroadcastsInDim S1x2048 (![1] : Fin 1 → Fin S1x2048.rank)
  concatenates_S2048x2048_S1x2048_S2049x2048_d0 : Shape.Concatenates [S2048x2048, S1x2048] S2049x2048 0
  bcast_S_S512x2049 : S_.BroadcastsInDim S512x2049 (![] : Fin 0 → Fin S512x2049.rank)
  reducesTo_S2049x2048_S_d0_1 : S2049x2048.ReducesTo [0, 1] S_
  h_S_ : 0 < S_.numel
  bcast_S_S2049x2048 : S_.BroadcastsInDim S2049x2048 (![] : Fin 0 → Fin S2049x2048.rank)
  bcast_S_S512x2048 : S_.BroadcastsInDim S512x2048 (![] : Fin 0 → Fin S512x2048.rank)
  dot_S512x2049_S2049x2048_S512x2048_1_0_0_1_n_n_wf : DotDims.WF S512x2049 S2049x2048 S512x2048 [1] [0] [0] [1] [] []

variable [Facts₀]

def dot_S512x2049_S2049x2048_S512x2048_1_0_0_1_n_n : DotDims S512x2049 S2049x2048 S512x2048 where
  lhsContracting := [1]
  rhsContracting := [0]
  lhsNonContracting := [0]
  rhsNonContracting := [1]
  lhsBatch := []
  rhsBatch := []
  wf := dot_S512x2049_S2049x2048_S512x2048_1_0_0_1_n_n_wf

class Facts : Prop extends Facts₀ where

variable [Facts]
-- ==== Proof.Spec.lean ====
/-
  The specification both programs are set against, and the algebra that joins them.

  The kernel computes a linear layer: entry (p, n) of its result is `∑ k, x(p,k) · w(n,k) + b(n)`
  (`linearOut`). The reference reaches the same number by a detour through a conductance model: with
  `u` the weight matrix transposed with the bias as one more row, `a` the input with one more column of
  ones, a scale `s` and an offset `g`, it forms `P = g + max (s·u) 0` and `N = g - min (s·u) 0` and returns
  `((h·a) P - (h·a) N) / (h·s)`. Since `max e 0 + min e 0 = e`, the two products differ by
  `h·s · (a u)`, and the quotient is `a u` whenever `h·s ≠ 0` (`conductance_cancel`). The scale is a
  positive constant over the largest `|u|`; when every entry of `u` is zero that quotient is `+∞`
  on the extended reals, the products `+∞ · 0` are `0`, both matrix products are equal finite numbers,
  and `0 / +∞ = 0` is again `a u` (`conductance_cancel_top`).
-/
import Idealize.ShloMosaic.PureOps.Ideal
import Idealize.ShloMosaic.Lib.ValueIdx

noncomputable section

open scoped BigOperators

namespace Cert.Linear

open Idealize.ShloMosaic Idealize.ShloMosaic.ValueIdx

/-- The linear layer `x wᵀ + b` over the literal shapes, index by index, on the extended reals. -/
def linearOut (x : (⟨2, ![512, 2048]⟩ : Shape).Idx → EReal) (w : (⟨2, ![2048, 2048]⟩ : Shape).Idx → EReal)
    (b : (⟨1, ![2048]⟩ : Shape).Idx → EReal) : (⟨2, ![512, 2048]⟩ : Shape).Idx → EReal :=
  fun i => (∑ k : Fin 2048, x (ix2 (⟨(i 0).val, (i 0).isLt⟩ : Fin 512) k) * w (ix2 (⟨(i 1).val, (i 1).isLt⟩ : Fin 2048) k))
    + b (ix1 (⟨(i 1).val, (i 1).isLt⟩ : Fin 2048))

/-- The coercion of a finite sum of reals is the sum of the coercions. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The coercion of a maximum of two reals is the maximum of the coercions. -/
theorem coe_max' (a b : ℝ) : max (a : EReal) (b : EReal) = ((max a b : ℝ) : EReal) :=
  (EReal.coe_strictMono.monotone.map_max).symm

/-- The coercion of a minimum of two reals is the minimum of the coercions. -/
theorem coe_min' (a b : ℝ) : min (a : EReal) (b : EReal) = ((min a b : ℝ) : EReal) :=
  (EReal.coe_strictMono.monotone.map_min).symm

/-- Over the reals: the two conductance products differ by `h·s` times the plain product. -/
theorem conductance_real {ι : Type*} [Fintype ι] (a u : ι → ℝ) (g h s : ℝ) :
    (∑ k, (h * a k) * (g + max (s * u k) 0)) - (∑ k, (h * a k) * (g - min (s * u k) 0)) = (h * s) * ∑ k, a k * u k := by
  rw [← Finset.sum_sub_distrib, Finset.mul_sum]
  refine Finset.sum_congr rfl fun k _ => ?_
  have e : max (s * u k) 0 + min (s * u k) 0 = s * u k + 0 := max_add_min _ _
  have : (h * a k) * (g + max (s * u k) 0) - (h * a k) * (g - min (s * u k) 0)
      = (h * a k) * (max (s * u k) 0 + min (s * u k) 0) := by ring
  rw [this, e]; ring

/-- On the extended reals, with real data and a real nonzero scale: the reference's quotient is the plain product. -/
theorem conductance_cancel {ι : Type*} [Fintype ι] (a u : ι → ℝ) (g h s : ℝ) (hh : h ≠ 0) (hs : s ≠ 0) :
    Ideal.div ((∑ k, ((h : EReal) * (a k : EReal)) * ((g : EReal) + max ((s : EReal) * (u k : EReal)) 0))
        - (∑ k, ((h : EReal) * (a k : EReal)) * ((g : EReal) - min ((s : EReal) * (u k : EReal)) 0)))
      ((h : EReal) * (s : EReal)) = ((∑ k, a k * u k : ℝ) : EReal) := by
  have e0 : (0 : EReal) = ((0 : ℝ) : EReal) := rfl
  have e1 : ∀ k, ((h : EReal) * (a k : EReal)) * ((g : EReal) + max ((s : EReal) * (u k : EReal)) 0)
      = (((h * a k) * (g + max (s * u k) 0) : ℝ) : EReal) := fun k => by
    rw [e0]; simp only [← EReal.coe_mul, coe_max', ← EReal.coe_add]
  have e2 : ∀ k, ((h : EReal) * (a k : EReal)) * ((g : EReal) - min ((s : EReal) * (u k : EReal)) 0)
      = (((h * a k) * (g - min (s * u k) 0) : ℝ) : EReal) := fun k => by
    rw [e0]; simp only [← EReal.coe_mul, coe_min', ← EReal.coe_sub]
  simp only [e1, e2]
  rw [← coe_sum, ← coe_sum, ← EReal.coe_sub, ← EReal.coe_mul, conductance_real,
    Ideal.div_coe (mul_ne_zero hh hs), ← EReal.coe_mul]
  congr 1
  field_simp

/-- On the extended reals, with an infinite scale over an all-zero `u`: both products are the same finite number,
    their difference is zero, and zero over `+∞` is zero, the plain product with a zero matrix. -/
theorem conductance_cancel_top {ι : Type*} [Fintype ι] (a : ι → ℝ) (g h : ℝ) (hh : 0 < h) :
    Ideal.div ((∑ k, ((h : EReal) * (a k : EReal)) * ((g : EReal) + max ((⊤ : EReal) * ((0 : ℝ) : EReal)) 0))
        - (∑ k, ((h : EReal) * (a k : EReal)) * ((g : EReal) - min ((⊤ : EReal) * ((0 : ℝ) : EReal)) 0)))
      ((h : EReal) * (⊤ : EReal)) = ((∑ k, a k * (0 : ℝ) : ℝ) : EReal) := by
  have e0 : (((0 : ℝ) : EReal)) = 0 := rfl
  have e1 : ∀ k, ((h : EReal) * (a k : EReal)) * ((g : EReal) + max ((⊤ : EReal) * ((0 : ℝ) : EReal)) 0)
      = (((h * a k) * g : ℝ) : EReal) := fun k => by
    rw [e0, mul_zero, max_self, add_zero, ← EReal.coe_mul, ← EReal.coe_mul]
  have e2 : ∀ k, ((h : EReal) * (a k : EReal)) * ((g : EReal) - min ((⊤ : EReal) * ((0 : ℝ) : EReal)) 0)
      = (((h * a k) * g : ℝ) : EReal) := fun k => by
    rw [e0, mul_zero, min_self, sub_zero, ← EReal.coe_mul, ← EReal.coe_mul]
  simp only [e1, e2]
  rw [← coe_sum, ← EReal.coe_sub, sub_self, EReal.coe_mul_top_of_pos hh]
  simp [Ideal.div]

end Cert.Linear

end
-- ==== Proof.KernelValue.lean ====
/-
  The idealized kernel's value: after its run the result array is the linear layer of the three argument arrays.

  The kernel walks four blocks of 512 output features. At block t it holds the whole input x (512 × 2048), rows
  512·t … 512·t + 511 of the weight matrix w (2048 × 2048) and columns 512·t … 512·t + 511 of the bias laid as one
  row, and writes columns 512·t … 512·t + 511 of the result: entry (p, q) of what it writes is
  ∑ k, x(p,k) · w(512·t + q, k) + b(512·t + q). The narrowing of the operands before the product is the identity on
  the extended reals, and the product's accumulator starts at zero. Every column n of the result lies in exactly the
  block n / 512, so the four blocks together are the whole array x wᵀ + b.
-/
import proofs.«100851_j14525579395745_1_alg».proof.Proof.Gen.KernelIdeal.Value
import proofs.«100851_j14525579395745_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

open scoped BigOperators

namespace Cert.KernelIdeal.LinearValue

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic at one entry -/

/-- The left operand of the product is read at the result's row … -/
theorem prod_lhs_row (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
/-- … and at the summation index along its second axis. -/
theorem prod_lhs_contr (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
/-- The right operand is read at the result's COLUMN along its first axis (the product is x wᵀ: both operands are
    contracted along their second axis) … -/
theorem prod_rhs_row (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- … and at the summation index along its second axis. -/
theorem prod_rhs_contr (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- The matrix product accumulated from zero, at entry (p, q): the sum over k of the left operand at (p, k) times the
    right operand at (q, k). -/
theorem product_apply (y0 y1 : FVec Ideal S512x2048 .bf16) (p q : Fin 512) :
    matmul (F := Ideal) dot_S512x2048_S512x2048_S512x512_1_1_0_0_n_n none y0 y1 (constant S512x512 .f32 0x00000000#32) (ix2 p q)
      = ∑ k : Fin 2048, y0 (ix2 p k) * y1 (ix2 q k) := by
  show FloatOps.matmul dot_S512x2048_S512x2048_S512x512_1_1_0_0_n_n none y0 y1 (constant S512x512 .f32 0x00000000#32) (ix2 p q) = _
  rw [Ideal.matmul_constant_zero_apply, ← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx (ix2 p q) ((ValueIdx.contrEquiv1 dot_S512x2048_S512x2048_S512x512_1_1_0_0_n_n 2048 rfl rfl).symm k) = ix2 p k := funext fun a => Fin.ext (by
    match a with
    | ⟨0, _⟩ => exact prod_lhs_row _ _
    | ⟨1, _⟩ => exact (prod_lhs_contr _ _).trans hk)
  have er : dot_S512x2048_S512x2048_S512x512_1_1_0_0_n_n.rhsIdx (ix2 p q) ((ValueIdx.contrEquiv1 dot_S512x2048_S512x2048_S512x512_1_1_0_0_n_n 2048 rfl rfl).symm k) = ix2 q k := funext fun a => Fin.ext (by
    match a with
    | ⟨0, _⟩ => exact prod_rhs_row _ _
    | ⟨1, _⟩ => exact (prod_rhs_contr _ _).trans hk)
  rw [el, er]

/-- The bias row laid under every row of the block: entry (p, q) is the row's entry (0, q). -/
theorem bias_rows_apply (x2 : Vec Ideal S1x512 .f32) (p q : Fin 512) :
    broadcastTo S512x512 (shapeCast S1x512 x2 shapeCasts_S1x512_S1x512) broadcasts_S1x512_S512x512 (ix2 p q) = x2 (ix2 0 q) := by
  rw [shapeCast_self]
  exact broadcastTo_apply x2 broadcasts_S1x512_S512x512 (ix2 p q) (ix2 0 q) (fun a => by
    match a with
    | ⟨0, _⟩ => rfl
    | ⟨1, _⟩ => rfl)

/-- THE BODY AT ONE ENTRY: from the whole input, a block of 512 weight rows and the matching 512 bias entries, entry
    (p, q) of what the body stores is ∑ k, x(p,k) · w(q,k) + b(q). -/
theorem payload_apply (x0 x1 : Vec Ideal S512x2048 .f32) (x2 : Vec Ideal S1x512 .f32) (p q : Fin 512) :
    k0_pay1 (F := Ideal) x0 x1 x2 (ix2 p q) = (∑ k : Fin 2048, x0 (ix2 p k) * x1 (ix2 q k)) + x2 (ix2 0 q) := by
  unfold k0_pay1
  rw [addf_apply, product_apply, bias_rows_apply]
  rfl

/-! ## From the four blocks to the array -/

variable (m : (ℓ : Loc nD τ sig) → Buf (Elt Ideal) ℓ) (ρ : Dev nD → PrngReg)

theorem zero_offsets : (![0, 0] : Fin 2 → Nat) = fun _ => 0 := funext fun a => by fin_cases a <;> rfl

/-- The index maps, decided over the four points: the input's block is always block (0, 0); the weights' row block, the
    bias's column block and the result's column block are the point's number. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The grid has four points. -/
theorem point_lt (t : Fin cfg0.N) : t.val < 4 := by
  have h : t.val < grid0.N := t.isLt
  have hN := N_0
  omega

/-- At every point the input's block is the whole input. -/
theorem input_block (c : Dev nD) (t : Fin cfg0.N) (y i : S512x2048.Idx)
    (h0 : (i 0).val = (y 0).val) (h1 : (i 1).val = (y 1).val) :
    (iblk m c 0 t : Vec Ideal S512x2048 .f32) y = (V m c main_arg0 : S512x2048.Idx → EReal) i := by
  obtain ⟨e0, e1, -⟩ := block_indices t
  have h : ((cfg0.win 0).blk t).view.emb y = i := by
    funext a; apply Fin.ext
    match a with
    | ⟨0, _⟩ => show win0_0.index t (0 : Fin 2) * 512 + 1 * (y 0).val = (i 0).val; omega
    | ⟨1, _⟩ => show win0_0.index t (1 : Fin 2) * 2048 + 1 * (y 1).val = (i 1).val; omega
  show V m c main_arg0 (((cfg0.win 0).blk t).view.emb y) = V m c main_arg0 i
  rw [h]

/-- At point t the weights' block is rows 512·t … 512·t + 511 of the weight matrix. -/
theorem weight_block (c : Dev nD) (t : Fin cfg0.N) (y : S512x2048.Idx) (i : S2048x2048.Idx)
    (h0 : (i 0).val = t.val * 512 + (y 0).val) (h1 : (i 1).val = (y 1).val) :
    (iblk m c 1 t : Vec Ideal S512x2048 .f32) y = (V m c main_arg1 : S2048x2048.Idx → EReal) i := by
  obtain ⟨-, -, e0, e1, -⟩ := block_indices t
  have h : ((cfg0.win 1).blk t).view.emb y = i := by
    funext a; apply Fin.ext
    match a with
    | ⟨0, _⟩ => show win0_1.index t (0 : Fin 2) * 512 + 1 * (y 0).val = (i 0).val; omega
    | ⟨1, _⟩ => show win0_1.index t (1 : Fin 2) * 2048 + 1 * (y 1).val = (i 1).val; omega
  show V m c main_arg1 (((cfg0.win 1).blk t).view.emb y) = V m c main_arg1 i
  rw [h]

/-- At point t the bias's block is columns 512·t … 512·t + 511 of the bias row. -/
theorem bias_block (c : Dev nD) (t : Fin cfg0.N) (y : S1x512.Idx) (i : S1x2048.Idx)
    (h0 : (i 0).val = (y 0).val) (h1 : (i 1).val = t.val * 512 + (y 1).val) :
    (iblk m c 2 t : Vec Ideal S1x512 .f32) y = (V m c main_v0 : S1x2048.Idx → EReal) i := by
  obtain ⟨-, -, -, -, e0, e1, -⟩ := block_indices t
  have h : ((cfg0.win 2).blk t).view.emb y = i := by
    funext a; apply Fin.ext
    match a with
    | ⟨0, _⟩ => show win0_2.index t (0 : Fin 2) * 1 + 1 * (y 0).val = (i 0).val; omega
    | ⟨1, _⟩ => show win0_2.index t (1 : Fin 2) * 512 + 1 * (y 1).val = (i 1).val; omega
  show V m c main_v0 (((cfg0.win 2).blk t).view.emb y) = V m c main_v0 i
  rw [h]

/-- The bias row as the region finds it: before the region the host lays the 2048 bias entries as one row, so its
    entry (0, n) is the bias's entry n. -/
theorem bias_row_apply (c : Dev nD) (n : Fin 2048) :
    (V m c main_v0 : S1x2048.Idx → EReal) (ix2 0 n) = (V m c main_arg2 : S2048.Idx → EReal) (ix1 n) := by
  have e : (V m c main_v0 : S1x2048.Idx → EReal)
      = shapeCast S1x2048 (m ((c : Thread nD τ).loc main_arg2) : S2048.Idx → EReal) shapeCasts_S2048_S1x2048 := by
    dsimp only [Gen.V, Gen.hostOps0]; after_results; rfl
  rw [e, V_main_arg2]
  refine shapeCast_apply _ _ (ix2 0 n) (ix1 n) ?_
  rw [Shape.rowMajor_val_one, Shape.rowMajor_val_two]
  show n.val = 0 * 2048 + n.val
  omega

/-- The linear layer at entry (p, n). -/
theorem linear_entry (x : S512x2048.Idx → EReal) (w : S2048x2048.Idx → EReal) (b : S2048.Idx → EReal) (p : Fin 512) (n : Fin 2048) :
    Cert.Linear.linearOut x w b (ix2 p n) = (∑ k : Fin 2048, x (ix2 p k) * w (ix2 n k)) + b (ix1 n) := rfl

/-- WHAT THE BODY COMPUTES AT A POINT, entry by entry: from the blocks at point t, entry (p, q) is entry
    (p, 512·t + q) of the linear layer of the arrays as the region finds them. -/
theorem block_entry (c : Dev nD) (t : Fin cfg0.N) (y : S512x512.Idx) :
    k0_pay1 (F := Ideal) (iblk m c 0 t) (iblk m c 1 t) (iblk m c 2 t) y
      = Cert.Linear.linearOut (V m c main_arg0) (V m c main_arg1) (V m c main_arg2) (((cfg0.win 3).blk t).view.emb y) := by
  obtain ⟨p, q, rfl⟩ : ∃ (p q : Fin 512), y = ix2 p q := ⟨y 0, y 1, eq_ix2 y⟩
  obtain ⟨-, -, -, -, -, -, e0, e1⟩ := block_indices t
  have ht := point_lt t
  have hn : t.val * 512 + q.val < 2048 := by omega
  have hi : ((cfg0.win 3).blk t).view.emb (ix2 p q) = ix2 p (⟨t.val * 512 + q.val, hn⟩ : Fin 2048) := by
    funext a; apply Fin.ext
    match a with
    | ⟨0, _⟩ => show win0_3.index t (0 : Fin 2) * 512 + 1 * p.val = p.val; omega
    | ⟨1, _⟩ => show win0_3.index t (1 : Fin 2) * 512 + 1 * q.val = t.val * 512 + q.val; omega
  rw [hi]
  refine (payload_apply _ _ _ p q).trans (Eq.trans ?_ (linear_entry _ _ _ p ⟨t.val * 512 + q.val, hn⟩).symm)
  congr 1
  · refine Finset.sum_congr rfl fun k _ => ?_
    rw [input_block m c t (ix2 p k) (ix2 p k) rfl rfl,
      weight_block m c t (ix2 q k) (ix2 (⟨t.val * 512 + q.val, hn⟩ : Fin 2048) k) rfl rfl]
  · exact (bias_block m c t (ix2 0 q) (ix2 0 (⟨t.val * 512 + q.val, hn⟩ : Fin 2048)) rfl rfl).trans
      (bias_row_apply m c ⟨t.val * 512 + q.val, hn⟩)

/-- WHAT POINT t WRITES BACK is block t of the linear layer of the arrays as the region finds them. -/
theorem flushed_eq (c : Dev nD) (t : Fin cfg0.N) :
    (dats m 0 c).flushed 3 t = ((cfg0.win 3).blk t).view.read (Elt Ideal)
      (Cert.Linear.linearOut (V m c main_arg0) (V m c main_arg1) (V m c main_arg2)) := by
  rw [Value.flushed3]
  unfold out0_3
  rw [View.canon_unit_zero zero_offsets]
  simp only [View.ld_unit_zero (S := S512x2048) zero_offsets, View.ld_unit_zero (S := S1x512) zero_offsets]
  funext j
  exact block_entry m c t j

/-- An index of the result array is in point t's block iff each coordinate is in the block's range on its axis. -/
theorem mem_block (t : Fin cfg0.N) (i : S512x2048.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v1).slice (win0_3.rect t)).set ↔ _
  rw [View.set_slice_whole, Rect.mem_set_unit]
  exact Iff.rfl

/-- THE FOUR BLOCKS COVER THE ARRAY: column n lies in the block of point n / 512. -/
theorem cover (i : S512x2048.Idx) :
    ∃ t : Fin cfg0.N, (cfg0.win 3).flush t = true ∧ i ∈ ((cfg0.win 3).blk t).view.set := by
  have h0 : (i 0).val < 512 := (i 0).isLt
  have h1 : (i 1).val < 2048 := (i 1).isLt
  have hN : grid0.N = 4 := N_0
  obtain ⟨t, ht⟩ : ∃ t : Fin cfg0.N, t.val = (i 1).val / 512 :=
    ⟨⟨(i 1).val / 512, by show (i 1).val / 512 < grid0.N; omega⟩, rfl⟩
  obtain ⟨-, -, -, -, -, -, e0, e1⟩ := block_indices t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 512 ≤ (i 1).val ∧ (i 1).val < win0_3.index t (1 : Fin 2) * 512 + 512
    omega

/-- THE RESULT ARRAY after the run is the linear layer of the three argument arrays as launched. -/
theorem final (c : Dev nD) :
    (dats m 0 c).arrAt 3 cfg0.N = Cert.Linear.linearOut (m ((c : Thread nD τ).loc main_arg0))
      (m ((c : Thread nD τ).loc main_arg1)) (m ((c : Thread nD τ).loc main_arg2)) := by
  have h := (dats m 0 c).arrAt_eq_of_cover 3
    (Cert.Linear.linearOut (V m c main_arg0) (V m c main_arg1) (V m c main_arg2)) (fun t _ => flushed_eq m c t) cover
  rw [V_main_arg0, V_main_arg1, V_main_arg2] at h
  exact h

/-! ## The run, read -/

/-- At the compiled mesh, from any memory with zero counters: every weakly fair execution of the idealized kernel
    terminates with the result array at x wᵀ + b of the three argument arrays, and the arguments unchanged. -/
theorem run : θ_run (defs (F := Ideal)) (onTc (τ := τ) (main (F := Ideal))) ⟨m, fun _ => 0, ρ⟩ fun r => ∀ c : Dev nD,
      r.2.mem ((c : Thread nD τ).loc main_v1) = Cert.Linear.linearOut (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.LinearValue

end
-- ==== Proof.FiniteInputs.lean ====
/-
  From the precondition to real entries.

  The predicate is, for each of the three arrays, "every entry has |x| < +∞", the three joined by "and".
  On the extended reals |x| is max x (-x); it is +∞ at both infinities, so an entry that passes the
  comparison is neither of them: it is a real number.
-/
import proofs.«100851_j14525579395745_1_alg».proof.Pre_finite_inputs
import proofs.«100851_j14525579395745_1_alg».proof.Proof.Gen.Pre_finite_inputs
import Idealize.ShloMosaic.Lib.ReduceAll
import Idealize.ShloMosaic.Lib.ValueIdx
import Idealize.ShloMosaic.PureOps.Ideal

noncomputable section

namespace Cert.Linear.Finite

open Idealize.ShloMosaic

/-- The shape of a scalar has exactly one index. -/
instance : Subsingleton Cert.Pre_finite_inputs.S_.Idx := ⟨fun a b => funext fun d => d.elim0⟩

/-- The pattern with all exponent bits set and no fraction bit denotes +∞. -/
theorem inf_bits : Ideal.ofBits .f32 0x7F800000#32 = (⊤ : EReal) := by simp [Ideal.ofBits, Ideal.ieee]

/-- An extended real whose absolute value, max x (-x), lies strictly below +∞ is a real number:
    at -∞ the negation is +∞, at +∞ the number itself is. -/
theorem real_of_abs_lt_top (x : EReal) (h : max x (-x) < ⊤) : ∃ r : ℝ, x = (r : EReal) := by
  induction x using EReal.rec with
  | bot => simp at h
  | coe r => exact ⟨r, rfl⟩
  | top => simp at h

/-- One element of the comparison |x| < +∞ being 1 says the entry is a real number. -/
theorem real_of_cmp (x : EReal)
    (h : Ideal.cmp .olt (max x (-x)) (Ideal.ofBits .f32 0x7F800000#32) = 1#1) : ∃ r : ℝ, x = (r : EReal) := by
  rw [inf_bits] at h
  refine real_of_abs_lt_top x ?_
  by_contra hn
  simp [Ideal.cmp, hn] at h

/-- If the precondition holds of three arrays on the extended reals, every entry of each is a real number. -/
theorem real_of_pre [Cert.Pre_finite_inputs.Facts] (x0 : FVec Ideal Cert.Pre_finite_inputs.S512x2048 .f32)
    (x1 : FVec Ideal Cert.Pre_finite_inputs.S2048x2048 .f32) (x2 : FVec Ideal Cert.Pre_finite_inputs.S2048 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  -- the outer "and" joins the first two arrays' conjunction with the third array's; the inner one the first two
  obtain ⟨h01, h2⟩ := IntOp.andi_eq_one.1 h0
  obtain ⟨h0', h1⟩ := IntOp.andi_eq_one.1 h01
  refine ⟨fun i => ?_, fun i => ?_, fun i => ?_⟩
  · exact real_of_cmp (x0 i) (Host.reduce_andi_all _ _ _ _ _ h0' i)
  · exact real_of_cmp (x1 i) (Host.reduce_andi_all _ _ _ _ _ h1 i)
  · exact real_of_cmp (x2 i) (Host.reduce_andi_all _ _ _ _ _ h2 i)

end Cert.Linear.Finite

end
-- ==== Proof.Consts.lean ====
/-
  The float constants the reference spells, as the extended reals their patterns denote: `0`, `1`, `1/2`, `-∞`, and the
  conductance model's two constants, the offset `8796093 · 2⁻⁴³` (the f32 nearest `10⁻⁶`) and the span
  `13606456 · 2⁻³⁷` (the f32 nearest `9.9 · 10⁻⁵`). Of the last two the proof uses only that they are real
  numbers and that the span is positive: both cancel in the reference's quotient.
-/
import Idealize.ShloMosaic.PureOps.Ideal

noncomputable section

namespace Cert.Linear.Consts

open Idealize.ShloMosaic

theorem ofBits_zero : Ideal.ofBits .f32 0x00000000#32 = 0 := by
  simp [Ideal.ofBits, Ideal.ieee]

theorem ofBits_one : Ideal.ofBits .f32 0x3F800000#32 = 1 := by
  rw [show (1 : EReal) = ((1 : ℝ) : EReal) by norm_cast]
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_inf : Ideal.ofBits .f32 0xFF800000#32 = ⊥ := by
  simp [Ideal.ofBits, Ideal.ieee]

/-- The offset constant is a real number. -/
theorem ofBits_offset : Ideal.ofBits .f32 0x358637BD#32 = (((8796093 : ℝ) * (2 : ℝ) ^ (-43 : ℤ) : ℝ) : EReal) := by
  simp [Ideal.ofBits, Ideal.ieee, -EReal.coe_mul]

/-- The span constant is a real number. -/
theorem ofBits_span : Ideal.ofBits .f32 0x38CF9E38#32 = (((13606456 : ℝ) * (2 : ℝ) ^ (-37 : ℤ) : ℝ) : EReal) := by
  simp [Ideal.ofBits, Ideal.ieee, -EReal.coe_mul]

/-- The span constant is positive. -/
theorem span_pos : (0 : ℝ) < (13606456 : ℝ) * (2 : ℝ) ^ (-37 : ℤ) := by positivity

end Cert.Linear.Consts

end
-- ==== Proof.RefStages.lean ====
/-
  The reference's two augmented matrices, read at an index.

  The reference appends a column of ones to the input, `[x | 1]` of shape [512, 2049], and stacks the bias under the
  transposed weights, `[wᵀ ; b]` of shape [2049, 2048]. With real entries, entry (p, k) of the first is `x(p,k)` for
  `k < 2048` and `1` at `k = 2048`; entry (k, n) of the second is `w(n,k)` for `k < 2048` and `b(n)` at `k = 2048`.
-/
import proofs.«100851_j14525579395745_1_alg».proof.Proof.RefRead
import proofs.«100851_j14525579395745_1_alg».proof.Proof.Consts
import Idealize.ShloMosaic.Lib.Pipeline.Value
import Idealize.ShloMosaic.Lib.ValueIdx

noncomputable section

namespace Cert.ReferenceIdeal.LinearRef

open Cert.ReferenceIdeal Cert.ReferenceIdeal.Gen Cert.ReferenceIdeal.RefRead Idealize.ShloMosaic Idealize.ShloMosaic.ValueIdx

/-- The input with one more column of ones, over the reals. -/
def aug (xr : S512x2048.Idx → ℝ) (p : Fin 512) (k : Fin 2049) : ℝ :=
  if h : k.val < 2048 then xr (ix2 p ⟨k.val, h⟩) else 1

/-- The weights transposed, with the bias as one more row, over the reals. -/
def wb (wr : S2048x2048.Idx → ℝ) (br : S2048.Idx → ℝ) (k : Fin 2049) (n : Fin 2048) : ℝ :=
  if h : k.val < 2048 then wr (ix2 n ⟨k.val, h⟩) else br (ix1 n)

/-- Entry (p, k) of `[x | 1]`. -/
theorem aug_apply (xr : S512x2048.Idx → ℝ) (p : Fin 512) (k : Fin 2049) :
    val_main_v1 (F := Ideal) (fun i => ((xr i : ℝ) : EReal)) (ix2 p k) = ((aug xr p k : ℝ) : EReal) := by
  unfold val_main_v1 aug
  by_cases h : k.val < 2048
  · rw [dif_pos h]
    exact concatenate_pair_apply_left 1 _ _ concatenates_S512x2048_S512x1_S512x2049_d1 (ix2 p k) rfl (ix2 p ⟨k.val, h⟩)
      (fun b => match b with | ⟨0, _⟩ => rfl | ⟨1, _⟩ => rfl)
  · rw [dif_neg h]
    have hk : k.val = 2048 := by have := k.isLt; omega
    rw [concatenate_pair_apply_right 1 _ _ concatenates_S512x2048_S512x1_S512x2049_d1 (ix2 p k) rfl rfl (ix2 p (0 : Fin 1))
      (fun b hb => match b, hb with | ⟨0, _⟩, _ => rfl | ⟨1, _⟩, hb => absurd rfl hb)
      (by show (0 : Nat) + 2048 = k.val; omega)]
    rw [val_main_v0_apply, val_main_cst_apply, Ideal.ofBits_def, Cert.Linear.Consts.ofBits_one]
    rfl

/-- Entry (k, n) of `[wᵀ ; b]`. -/
theorem wb_apply (wr : S2048x2048.Idx → ℝ) (br : S2048.Idx → ℝ) (k : Fin 2049) (n : Fin 2048) :
    val_main_v4 (F := Ideal) (fun i => ((wr i : ℝ) : EReal)) (fun i => ((br i : ℝ) : EReal)) (ix2 k n)
      = ((wb wr br k n : ℝ) : EReal) := by
  unfold val_main_v4 wb
  by_cases h : k.val < 2048
  · rw [dif_pos h, concatenate_pair_apply_left 0 _ _ concatenates_S2048x2048_S1x2048_S2049x2048_d0 (ix2 k n) rfl
      (ix2 (⟨k.val, h⟩ : Fin 2048) n) (fun b => match b with | ⟨0, _⟩ => rfl | ⟨1, _⟩ => rfl), val_main_v2_apply]
    have e : idx_main_v2 (ix2 (⟨k.val, h⟩ : Fin 2048) n) = ix2 n (⟨k.val, h⟩ : Fin 2048) :=
      funext fun d => match d with | ⟨0, _⟩ => rfl | ⟨1, _⟩ => rfl
    rw [e]
  · rw [dif_neg h]
    have hk : k.val = 2048 := by have := k.isLt; omega
    rw [concatenate_pair_apply_right 0 _ _ concatenates_S2048x2048_S1x2048_S2049x2048_d0 (ix2 k n) rfl rfl
      (ix2 (0 : Fin 1) n) (fun b hb => match b, hb with | ⟨0, _⟩, hb => absurd rfl hb | ⟨1, _⟩, _ => rfl)
      (by show (0 : Nat) + 2048 = k.val; omega), val_main_v3_apply]
    have e : idx_main_v3 (ix2 (0 : Fin 1) n) = ix1 n := funext fun d => match d with | ⟨0, _⟩ => rfl
    rw [e]

end Cert.ReferenceIdeal.LinearRef

end
-- ==== Proof.MaxFold.lean ====
/-
  The largest absolute value of a finite nonempty family of reals, computed on the extended reals as the fold of
  `max` from `-∞` over the coerced absolute values: it is a real number, it is nonnegative, and it bounds every
  absolute value of the family. In particular, when it is zero every member of the family is zero.
-/
import Idealize.ShloMosaic.PureOps.Ideal

noncomputable section

namespace Cert.Linear

/-- The fold of `max` from `-∞` over `|g i|` is a nonnegative real that bounds every `|g i|`. -/
theorem fold_max_abs {ι : Type*} [Fintype ι] [Nonempty ι] (g : ι → ℝ) :
    ∃ Mr : ℝ, (Finset.univ.fold max (⊥ : EReal) fun i => ((|g i| : ℝ) : EReal)) = (Mr : EReal) ∧ 0 ≤ Mr ∧ ∀ i, |g i| ≤ Mr := by
  set M : EReal := Finset.univ.fold max (⊥ : EReal) fun i => ((|g i| : ℝ) : EReal) with hM
  have hlt : M < ⊤ := (Finset.fold_max_lt _).2 ⟨bot_lt_top, fun i _ => EReal.coe_lt_top _⟩
  have hle : ∀ i, ((|g i| : ℝ) : EReal) ≤ M := fun i => (Finset.le_fold_max _).2 (Or.inr ⟨i, Finset.mem_univ _, le_rfl⟩)
  obtain ⟨i0⟩ := (inferInstance : Nonempty ι)
  have hbot : M ≠ ⊥ := fun h => EReal.coe_ne_bot _ (le_bot_iff.1 (h ▸ hle i0))
  have hcoe : ((M.toReal : ℝ) : EReal) = M := EReal.coe_toReal hlt.ne hbot
  refine ⟨M.toReal, hcoe.symm, ?_, fun i => ?_⟩
  · have h0 : (0 : EReal) ≤ M := le_trans (EReal.coe_nonneg.2 (abs_nonneg (g i0))) (hle i0)
    rw [← hcoe] at h0
    exact EReal.coe_nonneg.1 h0
  · have hi := hle i
    rw [← hcoe] at hi
    exact EReal.coe_le_coe_iff.1 hi

end Cert.Linear

end
-- ==== Proof.RefScale.lean ====
/-
  The reference's scale.

  With real inputs, write `u = [wᵀ ; b]` (`wb`). The reference takes `M`, the largest `|u|` (a fold of `max` from `-∞`
  over every entry), and the scale `s = c / M` for a positive constant `c`. `M` is a nonnegative real bounding every
  `|u|`. If `M > 0` the scale is a nonzero real; if `M = 0` every entry of `u` is zero and the scale is `+∞`.
-/
import proofs.«100851_j14525579395745_1_alg».proof.Proof.RefStages
import proofs.«100851_j14525579395745_1_alg».proof.Proof.Spec
import proofs.«100851_j14525579395745_1_alg».proof.Proof.MaxFold
import Idealize.ShloMosaic.PureOps.Ideal.Laws
import Idealize.ShloMosaic.PureOps.Reduce

noncomputable section

open scoped BigOperators

namespace Cert.ReferenceIdeal.LinearRef

open Cert.ReferenceIdeal Cert.ReferenceIdeal.Gen Cert.ReferenceIdeal.RefRead Idealize.ShloMosaic Idealize.ShloMosaic.ValueIdx
open Cert.Linear

variable (xr : S512x2048.Idx → ℝ) (wr : S2048x2048.Idx → ℝ) (br : S2048.Idx → ℝ)

instance : Subsingleton S_.Idx := ⟨fun a b => funext fun d => d.elim0⟩

instance : Nonempty S2049x2048.Idx := ⟨ix2 (0 : Fin 2049) (0 : Fin 2048)⟩

/-- Entry j of `|[wᵀ ; b]|`. -/
theorem abs_apply (j : S2049x2048.Idx) :
    val_main_v7 (F := Ideal) (fun i => ((wr i : ℝ) : EReal)) (fun i => ((br i : ℝ) : EReal)) j
      = ((|wb wr br ⟨(j 0).val, (j 0).isLt⟩ ⟨(j 1).val, (j 1).isLt⟩| : ℝ) : EReal) := by
  rw [val_main_v7_apply]
  have e : j = ix2 (⟨(j 0).val, (j 0).isLt⟩ : Fin 2049) (⟨(j 1).val, (j 1).isLt⟩ : Fin 2048) := eq_ix2 j
  rw [e, wb_apply]
  show max ((_ : ℝ) : EReal) (-((_ : ℝ) : EReal)) = _
  rw [← EReal.coe_neg, coe_max', abs_eq_max_neg]

/-- The largest `|u|` is a nonnegative real that bounds every `|u(k,n)|`. -/
theorem max_stage : ∃ Mr : ℝ,
    val_main_v8 (F := Ideal) (fun i => ((wr i : ℝ) : EReal)) (fun i => ((br i : ℝ) : EReal)) ix0 = (Mr : EReal)
      ∧ 0 ≤ Mr ∧ ∀ k n, |wb wr br k n| ≤ Mr := by
  obtain ⟨Mr, hM, h0, hle⟩ := fold_max_abs (fun j : S2049x2048.Idx => wb wr br ⟨(j 0).val, (j 0).isLt⟩ ⟨(j 1).val, (j 1).isLt⟩)
  refine ⟨Mr, ?_, h0, fun k n => hle (ix2 k n)⟩
  unfold val_main_v8
  rw [Host.reduce_eq_fold, ← hM]
  have hf : (Finset.univ.filter fun i : S2049x2048.Idx => reducesTo_S2049x2048_S_d0_1.drop i = (ix0 : S_.Idx)) = Finset.univ :=
    Finset.filter_true_of_mem fun i _ => Subsingleton.elim _ _
  rw [hf]
  have hinit : val_main_cst_1 (F := Ideal) (Shape.Idx.first h_S_) = (⊥ : EReal) := by
    rw [val_main_cst_1_apply, Ideal.ofBits_def, Consts.ofBits_neg_inf]
  rw [hinit]
  have hfun : val_main_v7 (F := Ideal) (fun i => ((wr i : ℝ) : EReal)) (fun i => ((br i : ℝ) : EReal))
      = fun j : S2049x2048.Idx => ((|wb wr br ⟨(j 0).val, (j 0).isLt⟩ ⟨(j 1).val, (j 1).isLt⟩| : ℝ) : EReal) :=
    funext fun j => abs_apply wr br j
  rw [hfun]
  rfl

/-- The scale `c / M`: a nonzero real, or `+∞` over an all-zero matrix. -/
theorem scale_cases :
    (∃ s : ℝ, s ≠ 0 ∧ val_main_v9 (F := Ideal) (fun i => ((wr i : ℝ) : EReal)) (fun i => ((br i : ℝ) : EReal)) ix0 = (s : EReal))
    ∨ (val_main_v9 (F := Ideal) (fun i => ((wr i : ℝ) : EReal)) (fun i => ((br i : ℝ) : EReal)) ix0 = (⊤ : EReal)
        ∧ ∀ k n, wb wr br k n = 0) := by
  obtain ⟨Mr, hM, h0, hle⟩ := max_stage wr br
  rw [val_main_v9_apply, hM, val_main_cst_2_apply, Ideal.ofBits_def, Consts.ofBits_span, Ideal.hostDivf_def]
  by_cases hz : Mr = 0
  · right
    subst hz
    refine ⟨?_, fun k n => abs_nonpos_iff.1 (hle k n)⟩
    have hpos : (0 : EReal) < (((13606456 : ℝ) * (2 : ℝ) ^ (-37 : ℤ) : ℝ) : EReal) := EReal.coe_pos.2 Consts.span_pos
    rw [Ideal.div, if_pos (by rfl), if_pos hpos]
  · left
    refine ⟨(13606456 : ℝ) * (2 : ℝ) ^ (-37 : ℤ) * (1 / Mr), mul_ne_zero Consts.span_pos.ne' (one_div_ne_zero hz), ?_⟩
    rw [Ideal.div_coe hz, ← EReal.coe_mul]

end Cert.ReferenceIdeal.LinearRef

end
-- ==== Proof.RefValue.lean ====
/-
  The reference computes the linear layer.

  With real inputs, write `a = [x | 1]` and `u = [wᵀ ; b]` (`aug`, `wb`), `s` the scale and `h = 1/2`. At (p, n) the
  reference returns `(∑ k, (h·a(p,k)) · (g + max (s·u(k,n)) 0) - ∑ k, (h·a(p,k)) · (g - min (s·u(k,n)) 0)) / (h·s)`.
  If the scale is a nonzero real the quotient is `∑ k, a(p,k)·u(k,n)` by cancellation; if it is `+∞` every entry of `u`
  is zero and the quotient is `0`, the same sum. Splitting off the last of the 2049 terms, `∑ k, a(p,k)·u(k,n)` is
  `∑ k < 2048, x(p,k)·w(n,k) + 1·b(n)`: the linear layer.
-/
import proofs.«100851_j14525579395745_1_alg».proof.Proof.RefScale

noncomputable section

open scoped BigOperators

namespace Cert.ReferenceIdeal.LinearRef

open Cert.ReferenceIdeal Cert.ReferenceIdeal.Gen Cert.ReferenceIdeal.RefRead Idealize.ShloMosaic Idealize.ShloMosaic.ValueIdx
open Cert.Linear

variable (xr : S512x2048.Idx → ℝ) (wr : S2048x2048.Idx → ℝ) (br : S2048.Idx → ℝ)

/-- One term of the product with the positive conductances `g + max (s·u) 0`. -/
theorem pos_term (p : Fin 512) (n : Fin 2048) (k : Fin 2049) :
    val_main_v6 (F := Ideal) (fun i => ((xr i : ℝ) : EReal)) (ix2 p k)
        * val_main_v16 (F := Ideal) (fun i => ((wr i : ℝ) : EReal)) (fun i => ((br i : ℝ) : EReal)) (ix2 k n)
      = (((1 / 2 : ℝ) : EReal) * ((aug xr p k : ℝ) : EReal))
        * ((((8796093 : ℝ) * (2 : ℝ) ^ (-43 : ℤ) : ℝ) : EReal)
            + max (val_main_v9 (F := Ideal) (fun i => ((wr i : ℝ) : EReal)) (fun i => ((br i : ℝ) : EReal)) ix0
                * ((wb wr br k n : ℝ) : EReal)) 0) := by
  rw [val_main_v6_apply, val_main_v5_apply, val_main_cst_0_apply, aug_apply, val_main_v16_apply, val_main_v15_apply,
    val_main_cst_5_apply, val_main_v14_apply, val_main_v12_apply, val_main_v11_apply, wb_apply, val_main_v13_apply,
    val_main_cst_4_apply, Ideal.ofBits_def, Ideal.ofBits_def, Ideal.ofBits_def, Consts.ofBits_half, Consts.ofBits_offset,
    Consts.ofBits_zero]
  rfl

/-- One term of the product with the negative conductances `g - min (s·u) 0`. -/
theorem neg_term (p : Fin 512) (n : Fin 2048) (k : Fin 2049) :
    val_main_v6 (F := Ideal) (fun i => ((xr i : ℝ) : EReal)) (ix2 p k)
        * val_main_v20 (F := Ideal) (fun i => ((wr i : ℝ) : EReal)) (fun i => ((br i : ℝ) : EReal)) (ix2 k n)
      = (((1 / 2 : ℝ) : EReal) * ((aug xr p k : ℝ) : EReal))
        * ((((8796093 : ℝ) * (2 : ℝ) ^ (-43 : ℤ) : ℝ) : EReal)
            - min (val_main_v9 (F := Ideal) (fun i => ((wr i : ℝ) : EReal)) (fun i => ((br i : ℝ) : EReal)) ix0
                * ((wb wr br k n : ℝ) : EReal)) 0) := by
  rw [val_main_v6_apply, val_main_v5_apply, val_main_cst_0_apply, aug_apply, val_main_v20_apply, val_main_v19_apply,
    val_main_cst_7_apply, val_main_v18_apply, val_main_v12_apply, val_main_v11_apply, wb_apply, val_main_v17_apply,
    val_main_cst_6_apply, Ideal.ofBits_def, Ideal.ofBits_def, Ideal.ofBits_def, Consts.ofBits_half, Consts.ofBits_offset,
    Consts.ofBits_zero]
  rfl

/-- The reference's result at (p, n), with real inputs: the plain product of the two augmented matrices. -/
theorem ref_apply (p : Fin 512) (n : Fin 2048) :
    val_main_v25 (F := Ideal) (fun i => ((xr i : ℝ) : EReal)) (fun i => ((wr i : ℝ) : EReal)) (fun i => ((br i : ℝ) : EReal)) (ix2 p n)
      = ((∑ k : Fin 2049, aug xr p k * wb wr br k n : ℝ) : EReal) := by
  have hl : ∀ k : Fin 2049, lidx_main_v21 (ix2 p n) k = ix2 p k :=
    fun k => funext fun a => match a with | ⟨0, _⟩ => rfl | ⟨1, _⟩ => rfl
  have hr : ∀ k : Fin 2049, ridx_main_v21 (ix2 p n) k = ix2 k n :=
    fun k => funext fun a => match a with | ⟨0, _⟩ => rfl | ⟨1, _⟩ => rfl
  have hl' : ∀ k : Fin 2049, lidx_main_v22 (ix2 p n) k = ix2 p k :=
    fun k => funext fun a => match a with | ⟨0, _⟩ => rfl | ⟨1, _⟩ => rfl
  have hr' : ∀ k : Fin 2049, ridx_main_v22 (ix2 p n) k = ix2 k n :=
    fun k => funext fun a => match a with | ⟨0, _⟩ => rfl | ⟨1, _⟩ => rfl
  rw [val_main_v25_apply, val_main_v23_apply, val_main_v21_apply, val_main_v22_apply, val_main_v24_apply, val_main_v10_apply,
    val_main_cst_3_apply]
  simp only [hl, hr, hl', hr']
  rw [Finset.sum_congr rfl (fun k _ => pos_term xr wr br p n k), Finset.sum_congr rfl (fun k _ => neg_term xr wr br p n k),
    Ideal.ofBits_def, Consts.ofBits_half]
  show Ideal.div (_ - _) (_ * val_main_v9 (F := Ideal) (fun i => ((wr i : ℝ) : EReal)) (fun i => ((br i : ℝ) : EReal)) ix0) = _
  rcases scale_cases wr br with ⟨s, hs, hK⟩ | ⟨hK, hz⟩
  · rw [hK]
    exact conductance_cancel (aug xr p) (fun k => wb wr br k n) _ (1 / 2) s (by norm_num) hs
  · rw [hK]
    simp only [hz]
    exact conductance_cancel_top (aug xr p) _ (1 / 2) (by norm_num)

/-- With real entries in all three arguments, the reference's result array is the linear layer. -/
theorem ref_eq (x0 : S512x2048.Idx → EReal) (x1 : S2048x2048.Idx → EReal) (x2 : S2048.Idx → EReal)
    (h0 : ∀ i, ∃ r : ℝ, x0 i = (r : EReal)) (h1 : ∀ i, ∃ r : ℝ, x1 i = (r : EReal)) (h2 : ∀ i, ∃ r : ℝ, x2 i = (r : EReal)) :
    val_main_v25 (F := Ideal) x0 x1 x2 = linearOut x0 x1 x2 := by
  choose xr hx using h0
  choose wr hw using h1
  choose br hb using h2
  obtain rfl : x0 = fun i => ((xr i : ℝ) : EReal) := funext hx
  obtain rfl : x1 = fun i => ((wr i : ℝ) : EReal) := funext hw
  obtain rfl : x2 = fun i => ((br i : ℝ) : EReal) := funext hb
  funext i
  obtain ⟨p, n, rfl⟩ : ∃ (p : Fin 512) (n : Fin 2048), i = ix2 p n := ⟨i 0, i 1, eq_ix2 i⟩
  rw [ref_apply, Fin.sum_univ_castSucc]
  have ea : ∀ k : Fin 2048, aug xr p k.castSucc = xr (ix2 p k) := fun k => by
    unfold aug; rw [dif_pos (show (k.castSucc).val < 2048 from k.isLt)]; rfl
  have ew : ∀ k : Fin 2048, wb wr br k.castSucc n = wr (ix2 n k) := fun k => by
    unfold wb; rw [dif_pos (show (k.castSucc).val < 2048 from k.isLt)]; rfl
  have la : aug xr p (Fin.last 2048) = 1 := by
    unfold aug; rw [dif_neg (show ¬ (Fin.last 2048).val < 2048 from Nat.lt_irrefl _)]
  have lw : wb wr br (Fin.last 2048) n = br (ix1 n) := by
    unfold wb; rw [dif_neg (show ¬ (Fin.last 2048).val < 2048 from Nat.lt_irrefl _)]
  simp only [ea, ew, la, lw, one_mul]
  rw [EReal.coe_add, coe_sum]
  simp only [EReal.coe_mul]
  rfl

end Cert.ReferenceIdeal.LinearRef

end
-- ==== Proof.lean ====
/-
  The certificate's five claims for the linear layer `x wᵀ + b`.

  Frames: the word-level kernel and its idealization terminate with their arguments unchanged; the reference is a
  straight line of host operations, and its frame is its run with the result dropped. The idealization rewrote no
  operation, so there is nothing for `preserves` to state.
  Value: the idealized kernel ends with `x wᵀ + b` in its result array, entry (p, n) being
  `∑ k, x(p,k)·w(n,k) + b(n)`. The reference reaches the same array through a conductance model whose offset and
  scale cancel: under the precondition its inputs are real numbers, the difference of its two matrix products is
  `(h·s)` times the product of `[x | 1]` with `[wᵀ ; b]`, and the final quotient by `h·s` returns that product, also
  in the corner where every weight and bias is zero and the scale is `+∞`. Both runs therefore end with the same
  function of arguments that agree.
-/
import proofs.«100851_j14525579395745_1_alg».proof.Defs
import proofs.«100851_j14525579395745_1_alg».proof.Proof.Gen.Kernel
import proofs.«100851_j14525579395745_1_alg».proof.Proof.Gen.Kernel.Skeleton
import proofs.«100851_j14525579395745_1_alg».proof.Proof.Gen.Kernel.Launch
import proofs.«100851_j14525579395745_1_alg».proof.Proof.Gen.Kernel.Points
import proofs.«100851_j14525579395745_1_alg».proof.Proof.Gen.Kernel.Frame
import proofs.«100851_j14525579395745_1_alg».proof.Proof.Gen.KernelIdeal
import proofs.«100851_j14525579395745_1_alg».proof.Proof.Gen.KernelIdeal.Skeleton
import proofs.«100851_j14525579395745_1_alg».proof.Proof.Gen.KernelIdeal.Launch
import proofs.«100851_j14525579395745_1_alg».proof.Proof.Gen.KernelIdeal.Points
import proofs.«100851_j14525579395745_1_alg».proof.Proof.Gen.KernelIdeal.Frame
import proofs.«100851_j14525579395745_1_alg».proof.Proof.Gen.ReferenceIdeal
import proofs.«100851_j14525579395745_1_alg».proof.Proof.Gen.Pre_finite_inputs
import proofs.«100851_j14525579395745_1_alg».proof.Proof.Gen.KernelIdeal.Value
import proofs.«100851_j14525579395745_1_alg».proof.Proof.RefRun
import proofs.«100851_j14525579395745_1_alg».proof.Proof.RefRead
import proofs.«100851_j14525579395745_1_alg».proof.Proof.KernelValue
import proofs.«100851_j14525579395745_1_alg».proof.Proof.FiniteInputs
import proofs.«100851_j14525579395745_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- From memories agreeing on the arguments, both idealized programs end with `x wᵀ + b` of the arguments: the kernel by
    its blocks, the reference by the cancellation of its conductance model over real inputs. -/
theorem algebraic : Cert.algebraic_KernelIdeal_ReferenceIdeal := by
  intro m ρ m' ρ' hpre hagree
  refine ⟨_, Cert.KernelIdeal.LinearValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2⟩ := Cert.Linear.Finite.real_of_pre _ _ _ (hpre c)
  rw [Cert.ReferenceIdeal.RefRead.val_main_v25_eq, (hagree c).1, (hagree c).2.1, (hagree c).2.2]
  exact Cert.ReferenceIdeal.LinearRef.ref_eq _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
